-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S100000x128 : Shape := ⟨2, ![100000, 128]⟩
abbrev S2x1600000 : Shape := ⟨2, ![2, 1600000]⟩
abbrev S1600000 : Shape := ⟨1, ![1600000]⟩
abbrev S1600000x50 : Shape := ⟨2, ![1600000, 50]⟩
abbrev S95x128 : Shape := ⟨2, ![95, 128]⟩
abbrev S128x50 : Shape := ⟨2, ![128, 50]⟩
abbrev S128 : Shape := ⟨1, ![128]⟩
abbrev S128x256 : Shape := ⟨2, ![128, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S1600000x50 : S_.BroadcastsInDim S1600000x50 (![] : Fin 0 → Fin S1600000x50.rank)
  reducesTo_S1600000x50_S_d0_1 : S1600000x50.ReducesTo [0, 1] S_
  bcast_S_S95x128 : S_.BroadcastsInDim S95x128 (![] : Fin 0 → Fin S95x128.rank)
  reducesTo_S95x128_S_d0_1 : S95x128.ReducesTo [0, 1] S_
  bcast_S_S128x50 : S_.BroadcastsInDim S128x50 (![] : Fin 0 → Fin S128x50.rank)
  reducesTo_S128x50_S_d0_1 : S128x50.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S128x50 .f32) (main_arg7 : FVec F S128 .f32) (main_arg8 : FVec F S128x256 .f32) (main_arg9 : FVec F S128 .f32) (main_v13 : IVec S_ 1) (main_v16 : IVec S95x128 1) : IVec S_ 1 :=
  let main_c_5 : IVec S_ 1 := constantI S_ 1 1#1
  let main_v17 : IVec S_ 1 := (fun x v => Host.reduce IntOp.andi x v reducesTo_S95x128_S_d0_1 h_S_) main_v16 main_c_5
  let main_v18 : IVec S_ 1 := andi main_v13 main_v17
  let main_v19 : FVec F S128x50 .f32 := Host.absf main_arg6
  let main_cst_6 : FVec F S_ .f32 := constant S_ .f32 0x7F800000#32
  let main_v20 : FVec F S128x50 .f32 := broadcastInDim S128x50 ![] bcast_S_S128x50 main_cst_6
  let main_v21 : IVec S128x50 1 := cmpf .olt main_v19 main_v20
  let main_c_7 : IVec S_ 1 := constantI S_ 1 1#1
  let main_v22 : IVec S_ 1 := (fun x v => Host.reduce IntOp.andi x v reducesTo_S128x50_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg8
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg9 main_v33

def fn {F : FTy → Type} [FloatOps F] (main_arg0 : IVec S100000 32) (main_arg1 : FVec F S100000x128 .f32) (main_arg2 : IVec S2x1600000 32) (main_arg3 : FVec F S1600000 .f32) (main_arg4 : FVec F S1600000x50 .f32) (main_arg5 : FVec F S95x128 .f32) (main_arg6 : FVec F S128x50 .f32) (main_arg7 : FVec F S128 .f32) (main_arg8 : FVec F S128x256 .f32) (main_arg9 : FVec F S128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S1600000x50 .f32 := Host.absf main_arg4
  let main_cst_2 : FVec F S_ .f32 := constant S_ .f32 0x7F800000#32
  let main_v10 : FVec F S1600000x50 .f32 := broadcastInDim S1600000x50 ![] bcast_S_S1600000x50 main_cst_2
  let main_v11 : IVec S1600000x50 1 := cmpf .olt main_v9 main_v10
  let main_c_3 : IVec S_ 1 := constantI S_ 1 1#1
  let main_v12 : IVec S_ 1 := (fun x v => Host.reduce IntOp.andi x v reducesTo_S1600000x50_S_d0_1 h_S_) main_v11 main_c_3
  let main_v13 : IVec S_ 1 := andi main_v8 main_v12
  let main_v14 : FVec F S95x128 .f32 := Host.absf main_arg5
  let main_cst_4 : FVec F S_ .f32 := constant S_ .f32 0x7F800000#32
  let main_v15 : FVec F S95x128 .f32 := broadcastInDim S95x128 ![] bcast_S_S95x128 main_cst_4
  let main_v16 : IVec S95x128 1 := cmpf .olt main_v14 main_v15
  fn_part1 (F := F) main_arg6 main_arg7 main_arg8 main_arg9 main_v13 main_v16
-- ==== Kernel.lean ====
abbrev S100000 : Shape := ⟨1, ![100000]⟩
abbrev S100000x128 : Shape := ⟨2, ![100000, 128]⟩
abbrev S2x1600000 : Shape := ⟨2, ![2, 1600000]⟩
abbrev S1600000 : Shape := ⟨1, ![1600000]⟩
abbrev S1600000x50 : Shape := ⟨2, ![1600000, 50]⟩
abbrev S95x128 : Shape := ⟨2, ![95, 128]⟩
abbrev S128x50 : Shape := ⟨2, ![128, 50]⟩
abbrev S128 : Shape := ⟨1, ![128]⟩
abbrev S128x256 : Shape := ⟨2, ![128, 256]⟩
abbrev S_ : Shape := ⟨0, ![]⟩
abbrev S100000x1 : Shape := ⟨2, ![100000, 1]⟩
abbrev S1x1600000 : Shape := ⟨2, ![1, 1600000]⟩
abbrev S1600000x1 : Shape := ⟨2, ![1600000, 1]⟩
abbrev S1600000x128 : Shape := ⟨2, ![1600000, 128]⟩
abbrev S50x128 : Shape := ⟨2, ![50, 128]⟩
abbrev S1x128 : Shape := ⟨2, ![1, 128]⟩
abbrev S12800x50 : Shape := ⟨2, ![12800, 50]⟩
abbrev S12800x1 : Shape := ⟨2, ![12800, 1]⟩
abbrev S12800x128 : Shape := ⟨2, ![12800, 128]⟩
abbrev S128x128 : Shape := ⟨2, ![128, 128]⟩
abbrev S10000x128 : Shape := ⟨2, ![10000, 128]⟩

abbrev nBuf : Space → Nat
  | .hbm => 53
  | .vmem => 19
  | .smem => 0
  | _ => 0

abbrev bufTy : (tb : Table) → Fin (tcTables nBuf tb) → BufTy
  | .hbm, ⟨0, _⟩ => ⟨S100000, .i32⟩
  | .hbm, ⟨1, _⟩ => ⟨S100000x128, .f32⟩
  | .hbm, ⟨2, _⟩ => ⟨S2x1600000, .i32⟩
  | .hbm, ⟨3, _⟩ => ⟨S1600000, .f32⟩
  | .hbm, ⟨4, _⟩ => ⟨S1600000x50, .f32⟩
  | .hbm, ⟨5, _⟩ => ⟨S95x128, .f32⟩
  | .hbm, ⟨6, _⟩ => ⟨S128x50, .f32⟩
  | .hbm, ⟨7, _⟩ => ⟨S128, .f32⟩
  | .hbm, ⟨8, _⟩ => ⟨S128x256, .f32⟩
  | .hbm, ⟨9, _⟩ => ⟨S128, .f32⟩
  | .hbm, ⟨10, _⟩ => ⟨S_, .i32⟩
  | .hbm, ⟨11, _⟩ => ⟨S100000, .i32⟩
  | .hbm, ⟨12, _⟩ => ⟨S100000, .i1⟩
  | .hbm, ⟨13, _⟩ => ⟨S_, .i32⟩
  | .hbm, ⟨14, _⟩ => ⟨S100000, .i32⟩
  | .hbm, ⟨15, _⟩ => ⟨S100000, .i32⟩
  | .hbm, ⟨16, _⟩ => ⟨S100000, .i32⟩
  | .hbm, ⟨17, _⟩ => ⟨S100000x1, .i32⟩
  | .hbm, ⟨18, _⟩ => ⟨S100000x128, .f32⟩
  | .hbm, ⟨19, _⟩ => ⟨S1x1600000, .i32⟩
  | .hbm, ⟨20, _⟩ => ⟨S1600000, .i32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S50x128, .f32⟩
  | .hbm, ⟨31, _⟩ => ⟨S1x128, .f32⟩
  | .hbm, ⟨32, _⟩ => ⟨S1600000x1, .f32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1x1600000, .i32⟩
  | .hbm, ⟨37, _⟩ => ⟨S1600000, .i32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S100000x128, .f32⟩
  | .hbm, ⟨47, _⟩ => ⟨S128x128, .f32⟩
  | .hbm, ⟨48, _⟩ => ⟨S128x128, .f32⟩
  | .hbm, ⟨49, _⟩ => ⟨S128x128, .f32⟩
  | .hbm, ⟨50, _⟩ => ⟨S128x128, .f32⟩
  | .hbm, ⟨51, _⟩ => ⟨S1x128, .f32⟩
  | .hbm, ⟨52, _⟩ => ⟨S100000x128, .f32⟩
  | .local _ .vmem, ⟨0, _⟩ => ⟨S12800x50, .f32⟩
  | .local _ .vmem, ⟨1, _⟩ => ⟨S12800x50, .f32⟩
  | .local _ .vmem, ⟨2, _⟩ => ⟨S50x128, .f32⟩
  | .local _ .vmem, ⟨3, _⟩ => ⟨S1x128, .f32⟩
  | .local _ .vmem, ⟨4, _⟩ => ⟨S12800x1, .f32⟩
  | .local _ .vmem, ⟨5, _⟩ => ⟨S12800x1, .f32⟩
  | .local _ .vmem, ⟨6, _⟩ => ⟨S12800x128, .f32⟩
  | .local _ .vmem, ⟨7, _⟩ => ⟨S12800x128, .f32⟩
  | .local _ .vmem, ⟨8, _⟩ => ⟨S12800x128, .f32⟩
  | .local _ .vmem, ⟨9, _⟩ => ⟨S12800x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S128x128, .f32⟩
  | .local _ .vmem, ⟨15, _⟩ => ⟨S128x128, .f32⟩
  | .local _ .vmem, ⟨16, _⟩ => ⟨S1x128, .f32⟩
  | .local _ .vmem, ⟨17, _⟩ => ⟨S10000x128, .f32⟩
  | .local _ .vmem, ⟨18, _⟩ => ⟨S10000x128, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_3 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12800x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S50x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S12800x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S12800x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S12800x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S128x50_S50x128_1_0 : S128x50.Transposes [1, 0] S50x128
  shapeCasts_S128_S1x128 : S128.ShapeCasts S1x128
  shapeCasts_S1600000_S1600000x1 : S1600000.ShapeCasts S1600000x1
  inb_S12800x50_S12800x50_0_0 : ∀ a, (![0, 0] : Fin 2 → Nat) a + S12800x50.size a ≤ S12800x50.size a
  h_S12800x50 : 0 < S12800x50.numel
  bitsLt_bf16_f32 : FTy.bits .bf16 < FTy.bits .f32
  inb_S50x128_S50x128_0_0 : ∀ a, (![0, 0] : Fin 2 → Nat) a + S50x128.size a ≤ S50x128.size a
  h_S50x128 : 0 < S50x128.numel
  shapeCasts_S50x128_S50x128 : S50x128.ShapeCasts S50x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S12800x128 : S1x128.Broadcasts S12800x128
  inb_S12800x1_S12800x1_0_0 : ∀ a, (![0, 0] : Fin 2 → Nat) a + S12800x1.size a ≤ S12800x1.size a
  h_S12800x1 : 0 < S12800x1.numel
  shapeCasts_S12800x1_S12800x1 : S12800x1.ShapeCasts S12800x1
  broadcasts_S12800x1_S12800x128 : S12800x1.Broadcasts S12800x128
  inb_S12800x128_S12800x128_0_0 : ∀ a, (![0, 0] : Fin 2 → Nat) a + S12800x128.size a ≤ S12800x128.size a
  h_S12800x128 : 0 < S12800x128.numel
  shapeCasts_S12800x128_S12800x128 : S12800x128.ShapeCasts S12800x128
  bcast_S_S100000x128 : S_.BroadcastsInDim S100000x128 (![] : Fin 0 → Fin S100000x128.rank)
  slices_S2x1600000_S1x1600000_0_0 : S2x1600000.Slices ![0, 0] S1x1600000
  slices_S128x256_S128x128_0_0 : S128x256.Slices ![0, 0] S128x128
  transposes_S128x128_S128x128_1_0 : S128x128.Transposes [1, 0] S128x128
  slices_S128x256_S128x128_0_128 : S128x256.Slices ![0, 128] S128x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S10000x128 : S1x128.Broadcasts S10000x128
  gather_S95x128_S100000x1_S100000x128_1_0_n_n_0_1_1128_wf : GatherDims.WF S95x128 S100000x1 S100000x128 [1] [0] [] [0] [] 1 ![1, 128]
  gather_S100000x128_S1600000x1_S1600000x128_1_0_n_n_0_1_1128_wf : GatherDims.WF S100000x128 S1600000x1 S1600000x128 [1] [0] [] [0] [] 1 ![1, 128]
  dot_S12800x50_S50x128_S12800x128_1_0_0_1_n_n_wf : DotDims.WF S12800x50 S50x128 S12800x128 [1] [0] [0] [1] [] []
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12800x50.size a ≤ S1600000x50.size a
  hwx0_0 : ∀ i : grid0.Coords, EltTy.bits .f32 = 32 ∨ (Rect.block (s := S1600000x50) S12800x50.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S50x128.size a ≤ S50x128.size a
  hwx0_1 : ∀ i : grid0.Coords, EltTy.bits .f32 = 32 ∨ (Rect.block (s := S50x128) S50x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S12800x1.size a ≤ S1600000x1.size a
  hwx0_3 : ∀ i : grid0.Coords, EltTy.bits .f32 = 32 ∨ (Rect.block (s := S1600000x1) S12800x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S12800x128.size a ≤ S1600000x128.size a
  hwx0_4 : ∀ i : grid0.Coords, EltTy.bits .f32 = 32 ∨ (Rect.block (s := S1600000x128) S12800x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S12800x128.size a ≤ S1600000x128.size a
  hwx0_5 : ∀ i : grid0.Coords, EltTy.bits .f32 = 32 ∨ (Rect.block (s := S1600000x128) S12800x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .f32 = 32 ∨ (Rect.block (s := S100000x128) S10000x128.size (cc1_transform_5 i) (hinb1_5 i)).WholeWords (EltTy.packing .f32)

variable [Facts₀]

def gather_S95x128_S100000x1_S100000x128_1_0_n_n_0_1_1128 : GatherDims S95x128 S100000x1 S100000x128 where
  offsetDims := [1]
  collapsedSliceDims := [0]
  operandBatchingDims := []
  startIndicesBatchingDims := []
  startIndexMap := [0]
  indexVectorDim := 1
  sliceSizes := ![1, 128]
  wf := gather_S95x128_S100000x1_S100000x128_1_0_n_n_0_1_1128_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S12800x50_S50x128_S12800x128_1_0_0_1_n_n : DotDims S12800x50 S50x128 S12800x128 where
  lhsContracting := [1]
  rhsContracting := [0]
  lhsNonContracting := [0]
  rhsNonContracting := [1]
  lhsBatch := []
  rhsBatch := []
  wf := dot_S12800x50_S50x128_S12800x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg4) S12800x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S50x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S12800x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S12800x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19) S12800x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000 : Shape := ⟨1, ![100000]⟩
abbrev S100000x128 : Shape := ⟨2, ![100000, 128]⟩
abbrev S2x1600000 : Shape := ⟨2, ![2, 1600000]⟩
abbrev S1600000 : Shape := ⟨1, ![1600000]⟩
abbrev S1600000x50 : Shape := ⟨2, ![1600000, 50]⟩
abbrev S95x128 : Shape := ⟨2, ![95, 128]⟩
abbrev S128x50 : Shape := ⟨2, ![128, 50]⟩
abbrev S128 : Shape := ⟨1, ![128]⟩
abbrev S128x256 : Shape := ⟨2, ![128, 256]⟩
abbrev S_ : Shape := ⟨0, ![]⟩
abbrev S50x128 : Shape := ⟨2, ![50, 128]⟩
abbrev S1600000x128 : Shape := ⟨2, ![1600000, 128]⟩
abbrev S1x128 : Shape := ⟨2, ![1, 128]⟩
abbrev S1600000x1 : Shape := ⟨2, ![1600000, 1]⟩
abbrev S100000x1 : Shape := ⟨2, ![100000, 1]⟩
abbrev S1x1600000 : Shape := ⟨2, ![1, 1600000]⟩
abbrev S100000x256 : Shape := ⟨2, ![100000, 256]⟩
abbrev S256x128 : Shape := ⟨2, ![256, 128]⟩

abbrev nBuf : Space → Nat
  | .hbm => 75
  | .vmem => 0
  | .smem => 0
  | _ => 0

abbrev bufTy : (tb : Table) → Fin (tcTables nBuf tb) → BufTy
  | .hbm, ⟨0, _⟩ => ⟨S100000, .i32⟩
  | .hbm, ⟨1, _⟩ => ⟨S100000x128, .f32⟩
  | .hbm, ⟨2, _⟩ => ⟨S2x1600000, .i32⟩
  | .hbm, ⟨3, _⟩ => ⟨S1600000, .f32⟩
  | .hbm, ⟨4, _⟩ => ⟨S1600000x50, .f32⟩
  | .hbm, ⟨5, _⟩ => ⟨S95x128, .f32⟩
  | .hbm, ⟨6, _⟩ => ⟨S128x50, .f32⟩
  | .hbm, ⟨7, _⟩ => ⟨S128, .f32⟩
  | .hbm, ⟨8, _⟩ => ⟨S128x256, .f32⟩
  | .hbm, ⟨9, _⟩ => ⟨S128, .f32⟩
  | .hbm, ⟨10, _⟩ => ⟨S_, .f32⟩
  | .hbm, ⟨11, _⟩ => ⟨S1600000, .f32⟩
  | .hbm, ⟨12, _⟩ => ⟨S1600000, .f32⟩
  | .hbm, ⟨13, _⟩ => ⟨S1600000, .f32⟩
  | .hbm, ⟨14, _⟩ => ⟨S_, .f32⟩
  | .hbm, ⟨15, _⟩ => ⟨S1600000, .f32⟩
  | .hbm, ⟨16, _⟩ => ⟨S1600000, .f32⟩
  | .hbm, ⟨17, _⟩ => ⟨S_, .f32⟩
  | .hbm, ⟨18, _⟩ => ⟨S1600000, .f32⟩
  | .hbm, ⟨19, _⟩ => ⟨S1600000, .f32⟩
  | .hbm, ⟨20, _⟩ => ⟨S_, .f32⟩
  | .hbm, ⟨21, _⟩ => ⟨S1600000, .f32⟩
  | .hbm, ⟨22, _⟩ => ⟨S1600000, .i1⟩
  | .hbm, ⟨23, _⟩ => ⟨S_, .f32⟩
  | .hbm, ⟨24, _⟩ => ⟨S_, .f32⟩
  | .hbm, ⟨25, _⟩ => ⟨S1600000, .f32⟩
  | .hbm, ⟨26, _⟩ => ⟨S1600000, .f32⟩
  | .hbm, ⟨27, _⟩ => ⟨S50x128, .f32⟩
  | .hbm, ⟨28, _⟩ => ⟨S1600000x128, .f32⟩
  | .hbm, ⟨29, _⟩ => ⟨S1x128, .f32⟩
  | .hbm, ⟨30, _⟩ => ⟨S1600000x128, .f32⟩
  | .hbm, ⟨31, _⟩ => ⟨S1600000x128, .f32⟩
  | .hbm, ⟨32, _⟩ => ⟨S1600000x1, .f32⟩
  | .hbm, ⟨33, _⟩ => ⟨S1600000x128, .f32⟩
  | .hbm, ⟨34, _⟩ => ⟨S1600000x128, .f32⟩
  | .hbm, ⟨35, _⟩ => ⟨S_, .i32⟩
  | .hbm, ⟨36, _⟩ => ⟨S100000, .i32⟩
  | .hbm, ⟨37, _⟩ => ⟨S100000, .i1⟩
  | .hbm, ⟨38, _⟩ => ⟨S_, .i32⟩
  | .hbm, ⟨39, _⟩ => ⟨S100000, .i32⟩
  | .hbm, ⟨40, _⟩ => ⟨S100000, .i32⟩
  | .hbm, ⟨41, _⟩ => ⟨S100000, .i32⟩
  | .hbm, ⟨42, _⟩ => ⟨S100000x1, .i32⟩
  | .hbm, ⟨43, _⟩ => ⟨S100000x128, .f32⟩
  | .hbm, ⟨44, _⟩ => ⟨S1x1600000, .i32⟩
  | .hbm, ⟨45, _⟩ => ⟨S1600000, .i32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1x1600000, .i32⟩
  | .hbm, ⟨59, _⟩ => ⟨S1600000, .i32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S100000x128, .f32⟩
  | .hbm, ⟨69, _⟩ => ⟨S100000x256, .f32⟩
  | .hbm, ⟨70, _⟩ => ⟨S256x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  transposes_S128x50_S50x128_1_0 : S128x50.Transposes [1, 0] S50x128
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000 : S_.BroadcastsInDim S100000 (![] : Fin 0 → Fin S100000.rank)
  bcast_S100000_S100000x1_0 : S100000.BroadcastsInDim S100000x1 (![0] : Fin 1 → Fin S100000x1.rank)
  slices_S2x1600000_S1x1600000_1_0 : S2x1600000.Slices ![1, 0] S1x1600000
  shapeCasts_S1x1600000_S1600000 : S1x1600000.ShapeCasts S1600000
  bcast_S_S100000x128 : S_.BroadcastsInDim S100000x128 (![] : Fin 0 → Fin S100000x128.rank)
  slices_S2x1600000_S1x1600000_0_0 : S2x1600000.Slices ![0, 0] S1x1600000
  concatenates_S100000x128_S100000x128_S100000x256_d1 : Shape.Concatenates [S100000x128, S100000x128] S100000x256 1
  transposes_S128x256_S256x128_1_0 : S128x256.Transposes [1, 0] S256x128
  bcast_S1x128_S100000x128_0_1 : S1x128.BroadcastsInDim S100000x128 (![0, 1] : Fin 2 → Fin S100000x128.rank)
  dot_S1600000x50_S50x128_S1600000x128_1_0_0_1_n_n_wf : DotDims.WF S1600000x50 S50x128 S1600000x128 [1] [0] [0] [1] [] []
  gather_S95x128_S100000x1_S100000x128_1_0_n_n_0_1_1128_wf : GatherDims.WF S95x128 S100000x1 S100000x128 [1] [0] [] [0] [] 1 ![1, 128]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x256_S256x128_S100000x128_1_0_0_1_n_n_wf : DotDims.WF S100000x256 S256x128 S100000x128 [1] [0] [0] [1] [] []

variable [Facts₀]

def dot_S1600000x50_S50x128_S1600000x128_1_0_0_1_n_n : DotDims S1600000x50 S50x128 S1600000x128 where
  lhsContracting := [1]
  rhsContracting := [0]
  lhsNonContracting := [0]
  rhsNonContracting := [1]
  lhsBatch := []
  rhsBatch := []
  wf := dot_S1600000x50_S50x128_S1600000x128_1_0_0_1_n_n_wf
def gather_S95x128_S100000x1_S100000x128_1_0_n_n_0_1_1128 : GatherDims S95x128 S100000x1 S100000x128 where
  offsetDims := [1]
  collapsedSliceDims := [0]
  operandBatchingDims := []
  startIndicesBatchingDims := []
  startIndexMap := [0]
  indexVectorDim := 1
  sliceSizes := ![1, 128]
  wf := gather_S95x128_S100000x1_S100000x128_1_0_n_n_0_1_1128_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.Spec.lean ====
/-
  The mathematics both programs compute, stated once over literal shapes and read index by index on the
  extended reals.

  * `cutoff r`: the cosine cutoff of a distance, `½ (cos (r · π/5) + 1)` below the radius 5 and 0 from it on
    (π/5 is the one float word both programs print; it is never evaluated).
  * `message`: one edge's message, channel by channel:
    `((∑ₖ attr[e,k] · Wᵀ[k,h] + bias[h]) · cutoff (dist[e])) · nbr[e,h]`.
  * `combine`: one node's output, channel by channel:
    `(∑ₖ feat[n,k] · W₁[k,h] + ∑ₖ agg[n,k] · W₂[k,h]) + bias[h]`.
  * `sum_halves`: a sum over 256 terms is the sum over its first 128 plus the sum over its last 128 — the one law
    that joins a product against the concatenation [feat | agg] to the two half products. Addition on the extended
    reals is commutative and associative, so no finiteness is needed.
-/
import Idealize.ShloMosaic.PureOps.Ideal
import Idealize.ShloMosaic.Lib.ValueIdx

noncomputable section

namespace Cert.Neighbor

open Idealize.ShloMosaic Idealize.ShloMosaic.ValueIdx

/-- A two-axis array of extended reals. -/
abbrev Arr (a b : Nat) := FVec Ideal (⟨2, ![a, b]⟩ : Shape) .f32

/-- The cosine cutoff of one distance. -/
def cutoff (r : Ideal .f32) : Ideal .f32 :=
  Scalar.select (FloatOps.cmpf .olt r (FloatOps.ofBits .f32 0x40A00000#32))
    (FloatOps.ofBits .f32 0x3F000000#32 * (FloatOps.cos (r * FloatOps.ofBits .f32 0x3F20D97C#32) + FloatOps.ofBits .f32 0x3F800000#32))
    (FloatOps.ofBits .f32 0x00000000#32)

/-- Every edge's message: the filter row of the edge, cut off by its distance, times the neighbour's embedding. -/
def message (attr : Arr 1600000 50) (wT : Arr 50 128) (bias : Arr 1 128) (dist : Arr 1600000 1) (nbr : Arr 1600000 128) :
    Arr 1600000 128 := fun i =>
  ((∑ k : Fin 50, attr (ix2 (i 0) k) * wT (ix2 k (i 1)) + bias (ix2 0 (i 1))) * cutoff (dist (ix2 (i 0) 0))) * nbr i

/-- Every node's output: its features and its aggregated messages, each through its half of the weights. -/
def combine (feat agg : Arr 100000 128) (w1 w2 : Arr 128 128) (bias : Arr 1 128) : Arr 100000 128 := fun i =>
  (∑ k : Fin 128, feat (ix2 (i 0) k) * w1 (ix2 k (i 1)) + ∑ k : Fin 128, agg (ix2 (i 0) k) * w2 (ix2 k (i 1))) + bias (ix2 0 (i 1))

/-- A sum over 256 terms splits into its two halves. -/
theorem sum_halves {M : Type*} [AddCommMonoid M] (f : Fin 256 → M) :
    ∑ k : Fin 256, f k = ∑ k : Fin 128, f (Fin.castAdd 128 k) + ∑ k : Fin 128, f (Fin.natAdd 128 k) :=
  Fin.sum_univ_add (a := 128) (b := 128) f

end Cert.Neighbor

end
-- ==== Proof.Region0.lean ====
/-
  REGION 0 of the program, as one array: after its last grid point the region's output array holds
  `message` of the arrays the region found at its entry, whatever those are.

  The region runs over 125 grid points; point `t` stages rows `12800 t … 12800 t + 12799` of the edge
  attributes, of the distances and of the neighbour embeddings, together with the whole weight matrix and the
  whole bias row, and writes back rows `12800 t … 12800 t + 12799` of the result. The proof reads the body's one
  stored value at an index (a sum over the 50 attribute channels, plus the bias, times the cutoff of the edge's
  distance, times the neighbour's entry), reads every staged block back as rows of its array, and lets the 125
  row blocks cover the result.
-/
import proofs.«116770_j19808389169521_1_alg».proof.Proof.Gen.KernelIdeal.Frame
import proofs.«116770_j19808389169521_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.Region0

open Cert.KernelIdeal Cert.KernelIdeal.Gen Idealize.ShloMosaic.ValueIdx

/-! ## The body's stored value at an index -/

/-- The zero offsets of a whole-block access, as the constant function. -/
theorem zero_offsets : (![0, 0] : Fin 2 → Nat) = fun _ => 0 := funext fun a => by fin_cases a <;> rfl

/-- The left operand of the product is read at the output's row … -/
theorem lhs_row (i : S12800x128.Idx) (q : dot_S12800x50_S50x128_S12800x128_1_0_0_1_n_n.contr.Idx) :
    (dot_S12800x50_S50x128_S12800x128_1_0_0_1_n_n.lhsIdx i q 0).val = (i 0).val := by
  unfold DotDims.lhsIdx
  rw [dif_neg (show ¬(0 : Fin S12800x50.rank) ∈ dot_S12800x50_S50x128_S12800x128_1_0_0_1_n_n.lhsBatch by decide), dif_pos (show (0 : Fin S12800x50.rank) ∈ dot_S12800x50_S50x128_S12800x128_1_0_0_1_n_n.lhsNonContracting by decide)]
  rfl
/-- … and at the contracted channel; -/
theorem lhs_channel (i : S12800x128.Idx) (q : dot_S12800x50_S50x128_S12800x128_1_0_0_1_n_n.contr.Idx) :
    (dot_S12800x50_S50x128_S12800x128_1_0_0_1_n_n.lhsIdx i q 1).val = (q ⟨0, by decide⟩).val :=
  dot_S12800x50_S50x128_S12800x128_1_0_0_1_n_n.lhsIdx_val_of_single rfl i q
/-- the right operand at the contracted channel … -/
theorem rhs_channel (i : S12800x128.Idx) (q : dot_S12800x50_S50x128_S12800x128_1_0_0_1_n_n.contr.Idx) :
    (dot_S12800x50_S50x128_S12800x128_1_0_0_1_n_n.rhsIdx i q 0).val = (q ⟨0, by decide⟩).val :=
  dot_S12800x50_S50x128_S12800x128_1_0_0_1_n_n.rhsIdx_val_of_single rfl i q
/-- … and at the output's column. -/
theorem rhs_column (i : S12800x128.Idx) (q : dot_S12800x50_S50x128_S12800x128_1_0_0_1_n_n.contr.Idx) :
    (dot_S12800x50_S50x128_S12800x128_1_0_0_1_n_n.rhsIdx i q 1).val = (i 1).val := by
  unfold DotDims.rhsIdx
  rw [dif_neg (show ¬(1 : Fin S50x128.rank) ∈ dot_S12800x50_S50x128_S12800x128_1_0_0_1_n_n.rhsBatch by decide), dif_pos (show (1 : Fin S50x128.rank) ∈ dot_S12800x50_S50x128_S12800x128_1_0_0_1_n_n.rhsNonContracting by decide)]
  rfl

/-- The product of a [12800, 50] block with the [50, 128] weights, accumulated into zero, read at row `p` and
    column `q`: the sum over the 50 channels of the row's entries times the column's. -/
theorem matmul_at (a : FVec Ideal S12800x50 .bf16) (w : FVec Ideal S50x128 .bf16) (p : Fin 12800) (q : Fin 128) :
    matmul dot_S12800x50_S50x128_S12800x128_1_0_0_1_n_n none a w (constant (F := Ideal) S12800x128 .f32 0x00000000#32) (ix2 p q)
      = ∑ k : Fin 50, a (ix2 p k) * w (ix2 k q) := by
  simp only [matmul]
  rw [Ideal.matmul_constant_zero_apply, ← Equiv.sum_comp (contrEquiv1 dot_S12800x50_S50x128_S12800x128_1_0_0_1_n_n 50 rfl rfl).symm]
  refine Finset.sum_congr rfl fun k _ => ?_
  have hk := contrEquiv1_symm_val dot_S12800x50_S50x128_S12800x128_1_0_0_1_n_n 50 rfl rfl k
  have el : dot_S12800x50_S50x128_S12800x128_1_0_0_1_n_n.lhsIdx (ix2 p q) ((contrEquiv1 dot_S12800x50_S50x128_S12800x128_1_0_0_1_n_n 50 rfl rfl).symm k) = ix2 p k := funext fun a => Fin.ext (by
    match a with
    | ⟨0, _⟩ => exact lhs_row _ _
    | ⟨1, _⟩ => exact (lhs_channel _ _).trans hk)
  have er : dot_S12800x50_S50x128_S12800x128_1_0_0_1_n_n.rhsIdx (ix2 p q) ((contrEquiv1 dot_S12800x50_S50x128_S12800x128_1_0_0_1_n_n 50 rfl rfl).symm k) = ix2 k q := funext fun a => Fin.ext (by
    match a with
    | ⟨0, _⟩ => exact (rhs_channel _ _).trans hk
    | ⟨1, _⟩ => exact rhs_column _ _)
  rw [el, er]

/-- A one-column array `[a, 1]` broadcast to `[a, b]` reads, at `(p, c)`, the operand's row `p`. -/
theorem broadcastTo_column {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- THE STORED VALUE at row `p`, column `q` of the block: the row's filter entry (the 50-channel sum plus the bias),
    cut off by the row's distance, times the neighbour's entry. The narrowing of the product's operands is the identity
    on the extended reals. -/
theorem payload_at (x0 : Vec Ideal S12800x50 .f32) (x1 : Vec Ideal S50x128 .f32) (x2 : Vec Ideal S1x128 .f32)
    (x3 : Vec Ideal S12800x1 .f32) (x4 : Vec Ideal S12800x128 .f32) (p : Fin 12800) (q : Fin 128) :
    k0_pay1 x0 x1 x2 x3 x4 (ix2 p q)
      = ((∑ k : Fin 50, x0 (ix2 p k) * x1 (ix2 k q) + x2 (ix2 (0 : Fin 1) q)) * Cert.Neighbor.cutoff (x3 (ix2 p (0 : Fin 1)))) * x4 (ix2 p q) := by
  unfold k0_pay1
  simp only [shapeCast_self]
  rw [mulf_apply, mulf_apply, addf_apply, broadcastTo_1b_ab_apply, broadcastTo_column, matmul_at]
  rfl

/-- One point's stored value against `message`: when the staged blocks hold, at the entries row `p` and column `q`
    depend on, what the arrays hold at row `r` (and the weights and the bias as they are), the value stored at
    `(p, q)` is the message of edge `r` in channel `q`. -/
theorem stored_eq_message (A0 : Cert.Neighbor.Arr 1600000 50) (A1 : Cert.Neighbor.Arr 50 128) (A2 : Cert.Neighbor.Arr 1 128)
    (A3 : Cert.Neighbor.Arr 1600000 1) (A4 : Cert.Neighbor.Arr 1600000 128)
    (x0 : Vec Ideal S12800x50 .f32) (x1 : Vec Ideal S50x128 .f32) (x2 : Vec Ideal S1x128 .f32)
    (x3 : Vec Ideal S12800x1 .f32) (x4 : Vec Ideal S12800x128 .f32) (p : Fin 12800) (q : Fin 128) (r : Fin 1600000)
    (h0 : ∀ k : Fin 50, x0 (ix2 p k) = A0 (ix2 r k))
    (h1 : ∀ k : Fin 50, x1 (ix2 k q) = A1 (ix2 k q))
    (h2 : x2 (ix2 (0 : Fin 1) q) = A2 (ix2 (0 : Fin 1) q))
    (h3 : x3 (ix2 p (0 : Fin 1)) = A3 (ix2 r (0 : Fin 1)))
    (h4 : x4 (ix2 p q) = A4 (ix2 r q)) :
    k0_pay1 x0 x1 x2 x3 x4 (ix2 p q) = Cert.Neighbor.message A0 A1 A2 A3 A4 (ix2 r q) := by
  rw [payload_at]
  show _ = ((∑ k : Fin 50, A0 (ix2 r k) * A1 (ix2 k q) + A2 (ix2 (0 : Fin 1) q)) * Cert.Neighbor.cutoff (A3 (ix2 r (0 : Fin 1)))) * A4 (ix2 r q)
  rw [h2, h3, h4, Finset.sum_congr rfl (fun k _ => by rw [h0 k, h1 k])]

/-! ## The staged blocks as rows of their arrays -/

/-- The printed index maps, decided over the 125 grid points: the three row-blocked inputs and the output sit at
    block row `t`, block column 0; the weights and the bias at block (0, 0). -/
theorem block_indices : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

variable (V : (c : Dev nD) → (b : Ref sig .tc) → Buf (Elt Ideal) ((c : Thread nD τ).loc b))

/-- The attribute block at point `t` is rows `12800 t …` of the attribute array. -/
theorem attr_block (c : Dev nD) (t : Fin cfg0.N) (y : S12800x50.Idx) (i : S1600000x50.Idx)
    (hi0 : (i 0).val = t.val * 12800 + (y 0).val) (hi1 : (i 1).val = (y 1).val) :
    (iblk0 V c 0 t : Vec Ideal S12800x50 .f32) y = (V c main_arg4 : S1600000x50.Idx → Elt Ideal .f32) i := by
  obtain ⟨⟨e0, e1⟩, -⟩ := block_indices t
  unfold iblk0
  rw [View.read_apply]
  show V c main_arg4 _ = V c main_arg4 _
  congr 1
  funext a
  apply Fin.ext
  match a with
  | ⟨0, _⟩ => show win0_0.index t (0 : Fin 2) * 12800 + 1 * (y 0).val = (i 0).val; rw [e0, hi0]; omega
  | ⟨1, _⟩ => show win0_0.index t (1 : Fin 2) * 50 + 1 * (y 1).val = (i 1).val; rw [e1, hi1]; omega

/-- The weight block at every point is the whole weight array. -/
theorem weight_block (c : Dev nD) (t : Fin cfg0.N) (y : S50x128.Idx) :
    (iblk0 V c 1 t : Vec Ideal S50x128 .f32) y = (V c main_v16 : S50x128.Idx → Elt Ideal .f32) y := by
  obtain ⟨-, ⟨e0, e1⟩, -⟩ := block_indices t
  unfold iblk0
  rw [View.read_apply]
  show V c main_v16 _ = V c main_v16 _
  congr 1
  funext a
  apply Fin.ext
  match a with
  | ⟨0, _⟩ => show win0_1.index t (0 : Fin 2) * 50 + 1 * (y 0).val = (y 0).val; rw [e0]; omega
  | ⟨1, _⟩ => show win0_1.index t (1 : Fin 2) * 128 + 1 * (y 1).val = (y 1).val; rw [e1]; omega

/-- The bias block at every point is the whole bias row. -/
theorem bias_block (c : Dev nD) (t : Fin cfg0.N) (y : S1x128.Idx) :
    (iblk0 V c 2 t : Vec Ideal S1x128 .f32) y = (V c main_v17 : S1x128.Idx → Elt Ideal .f32) y := by
  obtain ⟨-, -, ⟨e0, e1⟩, -⟩ := block_indices t
  unfold iblk0
  rw [View.read_apply]
  show V c main_v17 _ = V c main_v17 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- The distance block at point `t` is rows `12800 t …` of the distance column. -/
theorem dist_block (c : Dev nD) (t : Fin cfg0.N) (y : S12800x1.Idx) (i : S1600000x1.Idx)
    (hi0 : (i 0).val = t.val * 12800 + (y 0).val) (hi1 : (i 1).val = (y 1).val) :
    (iblk0 V c 3 t : Vec Ideal S12800x1 .f32) y = (V c main_v18 : S1600000x1.Idx → Elt Ideal .f32) i := by
  obtain ⟨-, -, -, ⟨e0, e1⟩, -⟩ := block_indices t
  unfold iblk0
  rw [View.read_apply]
  show V c main_v18 _ = V c main_v18 _
  congr 1
  funext a
  apply Fin.ext
  match a with
  | ⟨0, _⟩ => show win0_3.index t (0 : Fin 2) * 12800 + 1 * (y 0).val = (i 0).val; rw [e0, hi0]; omega
  | ⟨1, _⟩ => show win0_3.index t (1 : Fin 2) * 1 + 1 * (y 1).val = (i 1).val; rw [e1, hi1]; omega

/-- The neighbour block at point `t` is rows `12800 t …` of the neighbour embeddings. -/
theorem nbr_block (c : Dev nD) (t : Fin cfg0.N) (y : S12800x128.Idx) (i : S1600000x128.Idx)
    (hi0 : (i 0).val = t.val * 12800 + (y 0).val) (hi1 : (i 1).val = (y 1).val) :
    (iblk0 V c 4 t : Vec Ideal S12800x128 .f32) y = (V c main_v15 : S1600000x128.Idx → Elt Ideal .f32) i := by
  obtain ⟨-, -, -, -, ⟨e0, e1⟩, -⟩ := block_indices t
  unfold iblk0
  rw [View.read_apply]
  show V c main_v15 _ = V c main_v15 _
  congr 1
  funext a
  apply Fin.ext
  match a with
  | ⟨0, _⟩ => show win0_4.index t (0 : Fin 2) * 12800 + 1 * (y 0).val = (i 0).val; rw [e0, hi0]; omega
  | ⟨1, _⟩ => show win0_4.index t (1 : Fin 2) * 128 + 1 * (y 1).val = (i 1).val; rw [e1, hi1]; omega

/-! ## What a point writes back, and the whole array -/

/-- WHAT POINT `t` WRITES BACK is block `t` of `message` of the arrays as the region finds them: entry `(p, q)` of
    the block is the message of edge `12800 t + p` in channel `q`. -/
theorem flushed_eq (c : Dev nD) (t : Fin cfg0.N) :
    (dat0 (F := Ideal) V c).flushed 5 t
      = ((cfg0.win 5).blk t).view.read (Elt Ideal)
          (Cert.Neighbor.message (V c main_arg4) (V c main_v16) (V c main_v17) (V c main_v18) (V c main_v15)) := by
  show (cfg0.win 5).cut (grid0.coords t) ((dat0 V c).after 5 t) = _
  rw [after0_5]
  unfold out0_5
  rw [View.canon_unit_zero zero_offsets]
  simp only [View.ld_unit_zero (S := S12800x50) zero_offsets, View.ld_unit_zero (S := S50x128) zero_offsets,
    View.ld_unit_zero (S := S1x128) zero_offsets, View.ld_unit_zero (S := S12800x1) zero_offsets,
    View.ld_unit_zero (S := S12800x128) zero_offsets]
  obtain ⟨-, -, -, -, -, ⟨e0, e1⟩⟩ := block_indices t
  have ht : t.val < 125 := Nat.lt_of_lt_of_eq t.isLt N_0
  funext y
  obtain ⟨p, q, rfl⟩ : ∃ (p : Fin 12800) (q : Fin 128), y = ix2 p q := ⟨y 0, y 1, eq_ix2 y⟩
  have hp : p.val < 12800 := p.isLt
  show k0_pay1 (iblk0 V c 0 t) (iblk0 V c 1 t) (iblk0 V c 2 t) (iblk0 V c 3 t) (iblk0 V c 4 t) (ix2 p q)
    = Cert.Neighbor.message (V c main_arg4) (V c main_v16) (V c main_v17) (V c main_v18) (V c main_v15)
        (((cfg0.win 5).blk t).view.emb (ix2 p q))
  have hr : ((cfg0.win 5).blk t).view.emb (ix2 p q) = ix2 (⟨t.val * 12800 + p.val, by omega⟩ : Fin 1600000) q := by
    funext a
    apply Fin.ext
    match a with
    | ⟨0, _⟩ => show win0_5.index t (0 : Fin 2) * 12800 + 1 * p.val = t.val * 12800 + p.val; rw [e0]; omega
    | ⟨1, _⟩ => show win0_5.index t (1 : Fin 2) * 128 + 1 * q.val = q.val; rw [e1]; omega
  rw [hr]
  exact stored_eq_message (V c main_arg4) (V c main_v16) (V c main_v17) (V c main_v18) (V c main_v15)
    (iblk0 V c 0 t) (iblk0 V c 1 t) (iblk0 V c 2 t) (iblk0 V c 3 t) (iblk0 V c 4 t) p q ⟨t.val * 12800 + p.val, by omega⟩
    (fun k => attr_block V c t (ix2 p k) (ix2 ⟨t.val * 12800 + p.val, by omega⟩ k) rfl rfl)
    (fun k => weight_block V c t (ix2 k q))
    (bias_block V c t (ix2 (0 : Fin 1) q))
    (dist_block V c t (ix2 p (0 : Fin 1)) (ix2 ⟨t.val * 12800 + p.val, by omega⟩ (0 : Fin 1)) rfl rfl)
    (nbr_block V c t (ix2 p q) (ix2 ⟨t.val * 12800 + p.val, by omega⟩ q) rfl rfl)

/-- THE ARRAY after the region: every row `r` of the result lies in the block of point `r / 12800`, and every
    point writes its block back, so the 125 row blocks cover the array and it ends holding `message`. -/
theorem array (c : Dev nD) :
    (dat0 (F := Ideal) V c).arrAt 5 cfg0.N
      = Cert.Neighbor.message (V c main_arg4) (V c main_v16) (V c main_v17) (V c main_v18) (V c main_v15) :=
  (dat0 (F := Ideal) V c).arrAt_eq_of_cover 5
    (Cert.Neighbor.message (V c main_arg4) (V c main_v16) (V c main_v17) (V c main_v18) (V c main_v15))
    (fun t _ => flushed_eq V c t) fun i => by
      have hi0 : (i 0 : Nat) < 1600000 := (i 0).isLt
      have hi1 : (i 1 : Nat) < 128 := (i 1).isLt
      have hlt : (i 0 : Nat) / 12800 < cfg0.N := Nat.lt_of_lt_of_eq (by omega : (i 0 : Nat) / 12800 < 125) N_0.symm
      obtain ⟨-, -, -, -, -, ⟨e0, e1⟩⟩ := block_indices ⟨(i 0 : Nat) / 12800, hlt⟩
      refine ⟨⟨(i 0 : Nat) / 12800, hlt⟩, flush0_5 _, ?_⟩
      show i ∈ ((View.whole main_v19).slice (win0_5.rect ⟨(i 0 : Nat) / 12800, hlt⟩)).set
      rw [View.set_slice_whole, Rect.mem_set_unit]
      intro a
      match a with
      | ⟨0, _⟩ =>
        show win0_5.index ⟨(i 0 : Nat) / 12800, hlt⟩ (0 : Fin 2) * 12800 ≤ (i 0 : Nat)
          ∧ (i 0 : Nat) < win0_5.index ⟨(i 0 : Nat) / 12800, hlt⟩ (0 : Fin 2) * 12800 + 12800
        rw [e0]
        show (i 0 : Nat) / 12800 * 12800 ≤ (i 0 : Nat) ∧ (i 0 : Nat) < (i 0 : Nat) / 12800 * 12800 + 12800
        omega
      | ⟨1, _⟩ =>
        show win0_5.index ⟨(i 0 : Nat) / 12800, hlt⟩ (1 : Fin 2) * 128 ≤ (i 1 : Nat)
          ∧ (i 1 : Nat) < win0_5.index ⟨(i 0 : Nat) / 12800, hlt⟩ (1 : Fin 2) * 128 + 128
        rw [e1]
        omega

end Cert.KernelIdeal.Region0

end
-- ==== Proof.Region1.lean ====
/-
  REGION 1 of the program, as one array: after its last grid point the region's output array holds
  `combine` of the arrays the region found at its entry, whatever those are.

  The road. A grid point `t` (of ten) holds rows `10000·t … 10000·t + 9999` of the node features and of the
  aggregated messages, and the two weight matrices and the bias row whole. (1) The body's one store, read at
  row `p` and channel `q` of the block, is `(∑ₖ feat[p,k]·W₁[k,q] + ∑ₖ agg[p,k]·W₂[k,q]) + bias[0,q]`: the
  format changes are the identity on extended reals, the two block products into a zero accumulator are the
  plain sums over the one contracted axis, and the bias row is repeated down the rows. (2) So what point `t`
  writes back is block `t` of `combine` of the entry arrays: row `p` of the block is row `10000·t + p` of
  either array, and the whole operands are read at their own indices. (3) The ten blocks tile the 100000 rows
  (row `r` lies in block `r / 10000`), so the array ends holding `combine` everywhere.
-/
import proofs.«116770_j19808389169521_1_alg».proof.Proof.Gen.KernelIdeal.Frame
import proofs.«116770_j19808389169521_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.Region1

open Cert.KernelIdeal Cert.KernelIdeal.Gen Idealize.ShloMosaic.ValueIdx

/-! ## The block product at an index

The product of a [10000,128] block with a [128,128] matrix contracts the block's axis 1 against the matrix's
axis 0; the result's axis 0 is the block's row, its axis 1 the matrix's column. The four facts below name, for
each operand and each of its axes, which coordinate the product reads there. -/

/-- The left operand is read at the result's row … -/
theorem lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- … and at the contracted position along its columns. -/
theorem lhs_col (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand is read at the contracted position along its rows … -/
theorem rhs_row (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- … and at the result's column. -/
theorem rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A block times a matrix, into a zero accumulator, at row `p` and column `q`: the sum over the 128 contracted
    positions of the block's row against the matrix's column. -/
theorem product_at {φ₁ φ₂ : FTy} (x : FVec Ideal S10000x128 φ₁) (w : FVec Ideal S128x128 φ₂) (p : Fin 10000) (q : Fin 128) :
    matmul dot_S10000x128_S128x128_S10000x128_1_0_0_1_n_n none x w (constant (F := Ideal) S10000x128 .f32 0x00000000#32) (ix2 p q)
      = ∑ k : Fin 128, x (ix2 p k) * w (ix2 k q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_row _ _
    | ⟨1, _⟩ => exact (lhs_col _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The bias row repeated down the 10000 rows of a block, at row `p` and channel `q`, is the row's channel `q`. -/
theorem bias_rows_at (b : FVec Ideal S1x128 .f32) (p : Fin 10000) (q : Fin 128) :
    broadcastTo S10000x128 b broadcasts_S1x128_S10000x128 (ix2 p q) = b (ix2 0 q) :=
  broadcastTo_apply b broadcasts_S1x128_S10000x128 (ix2 p q) (ix2 0 q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-! ## The body's store at an index -/

/-- What the body stores, at row `p` and channel `q` of the block: the features' row against the first weight
    matrix's column, plus the aggregated messages' row against the second's, plus the bias of the channel. -/
theorem payload_at (x0 x1 : Vec Ideal S10000x128 .f32) (x2 x3 : Vec Ideal S128x128 .f32) (x4 : Vec Ideal S1x128 .f32)
    (p : Fin 10000) (q : Fin 128) :
    k1_pay1 (F := Ideal) x0 x1 x2 x3 x4 (ix2 p q)
      = (∑ k : Fin 128, x0 (ix2 p k) * x2 (ix2 k q) + ∑ k : Fin 128, x1 (ix2 p k) * x3 (ix2 k q)) + x4 (ix2 0 q) := by
  unfold k1_pay1
  simp only [shapeCast_self]
  rw [addf_apply, addf_apply, product_at, product_at, bias_rows_at]
  rfl

/-- The store's value at row `p`, channel `q` is `combine` at an array index `i`, as soon as the five blocks hold, along
    that row and that column, what the five arrays hold along row `i 0` and column `i 1`. -/
theorem payload_is_combine (feat agg : Cert.Neighbor.Arr 100000 128) (w1 w2 : Cert.Neighbor.Arr 128 128) (bias : Cert.Neighbor.Arr 1 128)
    (x0 x1 : Vec Ideal S10000x128 .f32) (x2 x3 : Vec Ideal S128x128 .f32) (x4 : Vec Ideal S1x128 .f32)
    (p : Fin 10000) (q : Fin 128) (i : S100000x128.Idx)
    (h0 : ∀ k : Fin 128, x0 (ix2 p k) = feat (ix2 (i 0) k))
    (h1 : ∀ k : Fin 128, x1 (ix2 p k) = agg (ix2 (i 0) k))
    (h2 : ∀ k : Fin 128, x2 (ix2 k q) = w1 (ix2 k (i 1)))
    (h3 : ∀ k : Fin 128, x3 (ix2 k q) = w2 (ix2 k (i 1)))
    (h4 : x4 (ix2 0 q) = bias (ix2 0 (i 1))) :
    k1_pay1 (F := Ideal) x0 x1 x2 x3 x4 (ix2 p q) = Cert.Neighbor.combine feat agg w1 w2 bias i := by
  rw [payload_at]
  unfold Cert.Neighbor.combine
  simp only [h0, h1, h2, h3, h4]

/-! ## The blocks of a grid point, read off the entry arrays -/

variable (V : (c : Dev nD) → (b : Ref sig .tc) → Buf (Elt Ideal) ((c : Thread nD τ).loc b))

theorem origin : (![0, 0] : Fin 2 → Nat) = fun _ => 0 := funext fun a => by fin_cases a <;> rfl

/-- The block index of every window at every grid point: the features, the aggregated messages and the output move down
    one block of rows per point; the weights and the bias stay at their one block. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the features' block at point `t` is row `10000·t + p` of the features. -/
theorem feat_block_at (c : Dev nD) (t : Fin cfg1.N) (p : Fin 10000) (k : Fin 128) (i : S100000x128.Idx)
    (hi : (i 0).val = 10000 * t.val + p.val) :
    (iblk1 V c 0 t : Vec Ideal S10000x128 .f32) (ix2 p k) = (V c main_arg1 : Cert.Neighbor.Arr 100000 128) (ix2 (i 0) k) := by
  obtain ⟨e0, e1, -⟩ := block_indices t
  unfold iblk1
  rw [View.read_apply]
  show V c main_arg1 _ = V c main_arg1 _
  congr 1
  funext a
  apply Fin.ext
  match a with
  | ⟨0, _⟩ => show win1_0.index t (0 : Fin 2) * 10000 + 1 * p.val = (i 0).val; rw [e0, hi]; omega
  | ⟨1, _⟩ => show win1_0.index t (1 : Fin 2) * 128 + 1 * k.val = k.val; rw [e1]; omega

/-- Row `p` of the aggregated messages' block at point `t` is row `10000·t + p` of the aggregated messages. -/
theorem agg_block_at (c : Dev nD) (t : Fin cfg1.N) (p : Fin 10000) (k : Fin 128) (i : S100000x128.Idx)
    (hi : (i 0).val = 10000 * t.val + p.val) :
    (iblk1 V c 1 t : Vec Ideal S10000x128 .f32) (ix2 p k) = (V c main_v29 : Cert.Neighbor.Arr 100000 128) (ix2 (i 0) k) := by
  obtain ⟨-, -, e0, e1, -⟩ := block_indices t
  unfold iblk1
  rw [View.read_apply]
  show V c main_v29 _ = V c main_v29 _
  congr 1
  funext a
  apply Fin.ext
  match a with
  | ⟨0, _⟩ => show win1_1.index t (0 : Fin 2) * 10000 + 1 * p.val = (i 0).val; rw [e0, hi]; omega
  | ⟨1, _⟩ => show win1_1.index t (1 : Fin 2) * 128 + 1 * k.val = k.val; rw [e1]; omega

/-- The first weight matrix is staged whole: its block at any point, at row `k` and a column, is the matrix there. -/
theorem w1_block_at (c : Dev nD) (t : Fin cfg1.N) (k q : Fin 128) (i : S100000x128.Idx) (hi : (i 1).val = q.val) :
    (iblk1 V c 2 t : Vec Ideal S128x128 .f32) (ix2 k q) = (V c main_v31 : Cert.Neighbor.Arr 128 128) (ix2 k (i 1)) := by
  obtain ⟨-, -, -, -, e0, e1, -⟩ := block_indices t
  unfold iblk1
  rw [View.read_apply]
  show V c main_v31 _ = V c main_v31 _
  congr 1
  funext a
  apply Fin.ext
  match a with
  | ⟨0, _⟩ => show win1_2.index t (0 : Fin 2) * 128 + 1 * k.val = k.val; rw [e0]; omega
  | ⟨1, _⟩ => show win1_2.index t (1 : Fin 2) * 128 + 1 * q.val = (i 1).val; rw [e1, hi]; omega

/-- So is the second weight matrix. -/
theorem w2_block_at (c : Dev nD) (t : Fin cfg1.N) (k q : Fin 128) (i : S100000x128.Idx) (hi : (i 1).val = q.val) :
    (iblk1 V c 3 t : Vec Ideal S128x128 .f32) (ix2 k q) = (V c main_v33 : Cert.Neighbor.Arr 128 128) (ix2 k (i 1)) := by
  obtain ⟨-, -, -, -, -, -, e0, e1, -⟩ := block_indices t
  unfold iblk1
  rw [View.read_apply]
  show V c main_v33 _ = V c main_v33 _
  congr 1
  funext a
  apply Fin.ext
  match a with
  | ⟨0, _⟩ => show win1_3.index t (0 : Fin 2) * 128 + 1 * k.val = k.val; rw [e0]; omega
  | ⟨1, _⟩ => show win1_3.index t (1 : Fin 2) * 128 + 1 * q.val = (i 1).val; rw [e1, hi]; omega

/-- And the bias row. -/
theorem bias_block_at (c : Dev nD) (t : Fin cfg1.N) (q : Fin 128) (i : S100000x128.Idx) (hi : (i 1).val = q.val) :
    (iblk1 V c 4 t : Vec Ideal S1x128 .f32) (ix2 0 q) = (V c main_v34 : Cert.Neighbor.Arr 1 128) (ix2 0 (i 1)) := by
  obtain ⟨-, -, -, -, -, -, -, -, e0, e1, -⟩ := block_indices t
  unfold iblk1
  rw [View.read_apply]
  show V c main_v34 _ = V c main_v34 _
  congr 1
  funext a
  apply Fin.ext
  match a with
  | ⟨0, _⟩ => show win1_4.index t (0 : Fin 2) * 1 + 1 * 0 = 0; rw [e0]
  | ⟨1, _⟩ => show win1_4.index t (1 : Fin 2) * 128 + 1 * q.val = (i 1).val; rw [e1, hi]; omega

/-! ## What a grid point writes back -/

/-- Point `t` writes back block `t` of `combine` of the entry arrays. -/
theorem written_back (c : Dev nD) (t : Fin cfg1.N) :
    (dat1 (F := Ideal) V c).flushed 5 t = ((cfg1.win 5).blk t).view.read (Elt Ideal)
      (Cert.Neighbor.combine (V c main_arg1) (V c main_v29) (V c main_v31) (V c main_v33) (V c main_v34)) := by
  show (cfg1.win 5).cut (grid1.coords t) ((dat1 V c).after 5 t) = _
  rw [after1_5]
  unfold out1_5
  rw [View.canon_unit_zero origin]
  simp only [View.ld_unit_zero (S := S10000x128) origin, View.ld_unit_zero (S := S128x128) origin, View.ld_unit_zero (S := S1x128) origin]
  obtain ⟨-, -, -, -, -, -, -, -, -, -, e0, e1⟩ := block_indices t
  funext j
  obtain ⟨p, q, rfl⟩ : ∃ (p : Fin 10000) (q : Fin 128), j = ix2 p q := ⟨j 0, j 1, eq_ix2 j⟩
  have hrow : ((((cfg1.win 5).blk t).view.emb (ix2 p q)) 0).val = 10000 * t.val + p.val := by
    show win1_5.index t (0 : Fin 2) * 10000 + 1 * p.val = _
    rw [e0]; omega
  have hcol : ((((cfg1.win 5).blk t).view.emb (ix2 p q)) 1).val = q.val := by
    show win1_5.index t (1 : Fin 2) * 128 + 1 * q.val = _
    rw [e1]; omega
  exact payload_is_combine (V c main_arg1) (V c main_v29) (V c main_v31) (V c main_v33) (V c main_v34)
    (iblk1 V c 0 t) (iblk1 V c 1 t) (iblk1 V c 2 t) (iblk1 V c 3 t) (iblk1 V c 4 t) p q (((cfg1.win 5).blk t).view.emb (ix2 p q))
    (fun k => feat_block_at V c t p k _ hrow) (fun k => agg_block_at V c t p k _ hrow)
    (fun k => w1_block_at V c t k q _ hcol) (fun k => w2_block_at V c t k q _ hcol) (bias_block_at V c t q _ hcol)

/-! ## The ten blocks tile the array -/

/-- After the last grid point the output array holds `combine` of the entry arrays: every row `r` lies in the block of
    point `r / 10000`, which is written back. -/
theorem array (c : Dev nD) :
    (dat1 (F := Ideal) V c).arrAt 5 cfg1.N
      = Cert.Neighbor.combine (V c main_arg1) (V c main_v29) (V c main_v31) (V c main_v33) (V c main_v34) :=
  (dat1 (F := Ideal) V c).arrAt_eq_of_cover 5
    (Cert.Neighbor.combine (V c main_arg1) (V c main_v29) (V c main_v31) (V c main_v33) (V c main_v34))
    (fun t _ => written_back V c t) fun i => by
      have hr : (i 0).val < 100000 := (i 0).isLt
      have hq : (i 1).val < 128 := (i 1).isLt
      have hN : grid1.N = 10 := N_1
      let t : Fin cfg1.N := ⟨(i 0).val / 10000, by show _ < grid1.N; rw [hN]; omega⟩
      obtain ⟨-, -, -, -, -, -, -, -, -, -, e0, e1⟩ := block_indices t
      have ht : t.val = (i 0).val / 10000 := rfl
      refine ⟨t, flush1_5 t, ?_⟩
      show i ∈ ((View.whole main_v35).slice (win1_5.rect t)).set
      rw [View.set_slice_whole, Rect.mem_set_unit]
      intro a
      match a with
      | ⟨0, _⟩ =>
        show win1_5.index t (0 : Fin 2) * 10000 ≤ (i 0).val ∧ (i 0).val < win1_5.index t (0 : Fin 2) * 10000 + 10000
        rw [e0, ht]; omega
      | ⟨1, _⟩ =>
        show win1_5.index t (1 : Fin 2) * 128 ≤ (i 1).val ∧ (i 1).val < win1_5.index t (1 : Fin 2) * 128 + 128
        rw [e1]; omega

end Cert.KernelIdeal.Region1

end
-- ==== Proof.HostStretch.lean ====
/-
  The host operations around the two regions, read back: what each region finds in the arrays it stages, as a term of
  the launch memory.

  Before the first region the host normalises the index inputs (a negative index wraps once by the axis' extent),
  gathers the embedding table at the node types and that at each edge's second endpoint, transposes the filter
  weights and reshapes the bias and the distances to two axes. Between the regions it scatter-adds the first region's
  output array into zeros at each edge's first endpoint, cuts the combine weights into their two halves, transposes
  each, and reshapes the bias. No host operation and no region writes an argument.
-/
import proofs.«116770_j19808389169521_1_alg».proof.Proof.Gen.KernelIdeal.Frame
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Stretch

open Cert.KernelIdeal Cert.KernelIdeal.Gen

variable {F : FTy → Type} [FloatOps F]

/-! ## The index inputs, normalised -/

/-- The node types as gather indices: a negative type wraps by the table's 95 rows. -/
def typeIdx (z : (⟨S100000, .i32⟩ : BufTy).Contents (Elt F)) : (⟨S100000x1, .i32⟩ : BufTy).Contents (Elt F) :=
  broadcastInDim S100000x1 ![0] bcast_S100000_S100000x1_0
    (select (cmpi .slt z (broadcastInDim S100000 ![] bcast_S_S100000 (constantI S_ 32 0#32)))
      (addi z (broadcastInDim S100000 ![] bcast_S_S100000 (constantI S_ 32 95#32))) z)

/-- One row of the edge list, as a vector. -/
def edgeRow1 (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000
def edgeRow0 (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000

/-- A vector of node numbers as gather / scatter indices: a negative number wraps by the 100000 nodes. -/
def nodeIdx (e : (⟨S1600000, .i32⟩ : BufTy).Contents (Elt F)) : (⟨S1600000x1, .i32⟩ : BufTy).Contents (Elt F) :=
  broadcastInDim S1600000x1 ![0] bcast_S1600000_S1600000x1_0
    (select (cmpi .slt e (broadcastInDim S1600000 ![] bcast_S_S1600000 (constantI S_ 32 0#32)))
      (addi e (broadcastInDim S1600000 ![] bcast_S_S1600000 (constantI S_ 32 100000#32))) e)

/-- Each edge's neighbour embedding: the table gathered at the node types, gathered at the edge's second endpoint. -/
def neighbour (emb : (⟨S95x128, .f32⟩ : BufTy).Contents (Elt F)) (z : (⟨S100000, .i32⟩ : BufTy).Contents (Elt F))
    (ei : (⟨S2x1600000, .i32⟩ : BufTy).Contents (Elt F)) : (⟨S1600000x128, .f32⟩ : BufTy).Contents (Elt F) :=
  Host.gather gather_S100000x128_S1600000x1_S1600000x128_1_0_n_n_0_1_1128
    (Host.gather gather_S95x128_S100000x1_S100000x128_1_0_n_n_0_1_1128 emb (typeIdx z)) (nodeIdx (edgeRow1 ei))

/-- The messages summed into each edge's first endpoint, from zeros. -/
def aggregate (ei : (⟨S2x1600000, .i32⟩ : BufTy).Contents (Elt F)) (msg : (⟨S1600000x128, .f32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32)) (nodeIdx (edgeRow0 ei)) msg

variable (m : (ℓ : Loc nD τ sig) → Buf (Elt F) ℓ) (ρ : Dev nD → PrngReg)

/-! ## What the first region finds -/

theorem entry0_attr (c : Dev nD) : V1 m ρ c main_arg4 = m ((c : Thread nD τ).loc main_arg4) := by
  show StableHlo.after hostOps0 (W0 m ρ c) (Proc.devRef .tc main_arg4) = _
  after_results_simp <;> rfl

theorem entry0_weights (c : Dev nD) :
    V1 m ρ c main_v16 = transpose S50x128 [1, 0] (m ((c : Thread nD τ).loc main_arg6)) transposes_S128x50_S50x128_1_0 := by
  show StableHlo.after hostOps0 (W0 m ρ c) (Proc.devRef .tc main_v16) = _
  after_results_simp <;> rfl

theorem entry0_bias (c : Dev nD) :
    V1 m ρ c main_v17 = shapeCast _ (m ((c : Thread nD τ).loc main_arg7)) shapeCasts_S128_S1x128 := by
  show StableHlo.after hostOps0 (W0 m ρ c) (Proc.devRef .tc main_v17) = _
  after_results_simp <;> rfl

theorem entry0_dist (c : Dev nD) :
    V1 m ρ c main_v18 = shapeCast _ (m ((c : Thread nD τ).loc main_arg3)) shapeCasts_S1600000_S1600000x1 := by
  show StableHlo.after hostOps0 (W0 m ρ c) (Proc.devRef .tc main_v18) = _
  after_results_simp <;> rfl

set_option maxHeartbeats 4000000 in
theorem entry0_nbr (c : Dev nD) :
    V1 m ρ c main_v15 = neighbour (m ((c : Thread nD τ).loc main_arg5)) (m ((c : Thread nD τ).loc main_arg0))
      (m ((c : Thread nD τ).loc main_arg2)) := by
  show StableHlo.after hostOps0 (W0 m ρ c) (Proc.devRef .tc main_v15) = _
  after_results_simp <;> rfl

/-! ## What the second region finds -/

/-- An argument the first stretch does not write is still the launch contents at the first region's exit. -/
theorem exit0_feat (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results_simp <;> rfl)
theorem exit0_edges (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results_simp <;> rfl)
theorem exit0_weights (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results_simp <;> rfl)
theorem exit0_bias (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results_simp <;> rfl)
/-- The first region's output array at its exit: what its write-backs leave. -/
theorem exit0_msg (c : Dev nD) : W2 m ρ c (Proc.devRef .tc main_v19) = (dat0 (V1 m ρ) c).arrAt 5 cfg0.N :=
  W2_arr m ρ c 5

theorem entry1_feat (c : Dev nD) : V3 m ρ c main_arg1 = m ((c : Thread nD τ).loc main_arg1) := by
  show StableHlo.after hostOps1 (W2 m ρ c) (Proc.devRef .tc main_arg1) = _
  after_results_simp
  exact exit0_feat m ρ c

theorem entry1_agg (c : Dev nD) :
    V3 m ρ c main_v29 = aggregate (m ((c : Thread nD τ).loc main_arg2)) ((dat0 (V1 m ρ) c).arrAt 5 cfg0.N) := by
  show StableHlo.after hostOps1 (W2 m ρ c) (Proc.devRef .tc main_v29) = _
  after_results_simp
  rw [exit0_edges m ρ c, exit0_msg m ρ c]
  rfl

theorem entry1_w1 (c : Dev nD) :
    V3 m ρ c main_v31 = transpose S128x128 [1, 0]
      (extractStridedSlice S128x128 ![0, 0] (m ((c : Thread nD τ).loc main_arg8)) slices_S128x256_S128x128_0_0) transposes_S128x128_S128x128_1_0 := by
  show StableHlo.after hostOps1 (W2 m ρ c) (Proc.devRef .tc main_v31) = _
  after_results_simp
  rw [exit0_weights m ρ c]

theorem entry1_w2 (c : Dev nD) :
    V3 m ρ c main_v33 = transpose S128x128 [1, 0]
      (extractStridedSlice S128x128 ![0, 128] (m ((c : Thread nD τ).loc main_arg8)) slices_S128x256_S128x128_0_128) transposes_S128x128_S128x128_1_0 := by
  show StableHlo.after hostOps1 (W2 m ρ c) (Proc.devRef .tc main_v33) = _
  after_results_simp
  rw [exit0_weights m ρ c]

theorem entry1_bias (c : Dev nD) :
    V3 m ρ c main_v34 = shapeCast _ (m ((c : Thread nD τ).loc main_arg9)) shapeCasts_S128_S1x128 := by
  show StableHlo.after hostOps1 (W2 m ρ c) (Proc.devRef .tc main_v34) = _
  after_results_simp
  rw [exit0_bias m ρ c]
  rfl

end Cert.KernelIdeal.Stretch

end
-- ==== Proof.KernelValue.lean ====
/-
  The kernel's result as ONE function of its arguments, and its run.

  The second region's output array is `combine` of the node features, the aggregated messages, the two transposed
  halves of the combine weights and the bias; the aggregated messages are the scatter-add, at each edge's first
  endpoint, of the first region's output array, which is `message` of the edge attributes, the transposed filter
  weights, the bias, the distances and each edge's neighbour embedding. Each region's array is what its write-backs
  leave (the two hypotheses `h0`, `h1`: one array function per region, at whatever the region finds); the host
  stretches between are read back in `Stretch`.
-/
import proofs.«116770_j19808389169521_1_alg».proof.Proof.KernelRun
import proofs.«116770_j19808389169521_1_alg».proof.Proof.HostStretch
import proofs.«116770_j19808389169521_1_alg».proof.Proof.Spec

set_option maxRecDepth 16384

noncomputable section

open Idealize.ShloMosaic Idealize.ShloMosaic.TcCoe Idealize.SL.Sem

namespace Cert.KernelIdeal.Closed

open Cert.KernelIdeal Cert.KernelIdeal.Gen Cert.KernelIdeal.Stretch

/-- The kernel's result array as a function of the ten arguments. -/
def result (z : (⟨S100000, .i32⟩ : BufTy).Contents (Elt Ideal)) (feat : (⟨S100000x128, .f32⟩ : BufTy).Contents (Elt Ideal))
    (ei : (⟨S2x1600000, .i32⟩ : BufTy).Contents (Elt Ideal)) (dist : (⟨S1600000, .f32⟩ : BufTy).Contents (Elt Ideal))
    (attr : (⟨S1600000x50, .f32⟩ : BufTy).Contents (Elt Ideal)) (emb : (⟨S95x128, .f32⟩ : BufTy).Contents (Elt Ideal))
    (fw : (⟨S128x50, .f32⟩ : BufTy).Contents (Elt Ideal)) (fb : (⟨S128, .f32⟩ : BufTy).Contents (Elt Ideal))
    (cw : (⟨S128x256, .f32⟩ : BufTy).Contents (Elt Ideal)) (cb : (⟨S128, .f32⟩ : BufTy).Contents (Elt Ideal)) :
    (⟨S100000x128, .f32⟩ : BufTy).Contents (Elt Ideal) :=
  Cert.Neighbor.combine feat
    (aggregate ei
      (Cert.Neighbor.message attr (transpose S50x128 [1, 0] fw transposes_S128x50_S50x128_1_0)
        (shapeCast _ fb shapeCasts_S128_S1x128) (shapeCast _ dist shapeCasts_S1600000_S1600000x1) (neighbour emb z ei)))
    (transpose S128x128 [1, 0] (extractStridedSlice S128x128 ![0, 0] cw slices_S128x256_S128x128_0_0) transposes_S128x128_S128x128_1_0)
    (transpose S128x128 [1, 0] (extractStridedSlice S128x128 ![0, 128] cw slices_S128x256_S128x128_0_128) transposes_S128x128_S128x128_1_0)
    (shapeCast _ cb shapeCasts_S128_S1x128)

variable (m : (ℓ : Loc nD τ sig) → Buf (Elt Ideal) ℓ) (ρ : Dev nD → PrngReg)

/-- The result buffer at the last boundary is `result` of the launch contents of the arguments. -/
theorem last_boundary
    (h0 : ∀ (V : (c : Dev nD) → (b : Ref sig .tc) → Buf (Elt Ideal) ((c : Thread nD τ).loc b)) (c : Dev nD),
      (dat0 (F := Ideal) V c).arrAt 5 cfg0.N
        = Cert.Neighbor.message (V c main_arg4) (V c main_v16) (V c main_v17) (V c main_v18) (V c main_v15))
    (h1 : ∀ (V : (c : Dev nD) → (b : Ref sig .tc) → Buf (Elt Ideal) ((c : Thread nD τ).loc b)) (c : Dev nD),
      (dat1 (F := Ideal) V c).arrAt 5 cfg1.N
        = Cert.Neighbor.combine (V c main_arg1) (V c main_v29) (V c main_v31) (V c main_v33) (V c main_v34))
    (c : Dev nD) :
    W4 m ρ c (Proc.devRef .tc main_v35)
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W4_arr m ρ c 5).trans ?_
  rw [h1 (V3 m ρ) c, entry1_feat m ρ c, entry1_agg m ρ c, entry1_w1 m ρ c, entry1_w2 m ρ c, entry1_bias m ρ c,
    h0 (V1 m ρ) c, entry0_attr m ρ c, entry0_weights m ρ c, entry0_bias m ρ c, entry0_dist m ρ c, entry0_nbr m ρ c]
  rfl

/-- Every weakly fair execution of the kernel's @main terminates, nothing faulting, with the result array at `result` of
    the arguments and the arguments unchanged. -/
theorem run
    (h0 : ∀ (V : (c : Dev nD) → (b : Ref sig .tc) → Buf (Elt Ideal) ((c : Thread nD τ).loc b)) (c : Dev nD),
      (dat0 (F := Ideal) V c).arrAt 5 cfg0.N
        = Cert.Neighbor.message (V c main_arg4) (V c main_v16) (V c main_v17) (V c main_v18) (V c main_v15))
    (h1 : ∀ (V : (c : Dev nD) → (b : Ref sig .tc) → Buf (Elt Ideal) ((c : Thread nD τ).loc b)) (c : Dev nD),
      (dat1 (F := Ideal) V c).arrAt 5 cfg1.N
        = Cert.Neighbor.combine (V c main_arg1) (V c main_v29) (V c main_v31) (V c main_v33) (V c main_v34)) :
    θ_run defs (onTc (τ := τ) (main (F := Ideal))) ⟨m, fun _ => 0, ρ⟩ (fun r => ∀ c : Dev nD,
      r.2.mem ((c.tc : Thread nD τ).loc main_v35)
        = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (last_boundary m ρ h0 h1 c), (h c).2⟩)
    (Cert.KernelIdeal.Launched.run_named (F := Ideal) m ρ)

end Cert.KernelIdeal.Closed

end
-- ==== Proof.RefBridge.lean ====
/-
  The reference's result is the kernel's closed form, index by index on the extended reals.

  The reference computes each edge's message as the kernel does — the same filter row (a contraction over the 50
  attributes plus the bias), cut off by the same function of the distance, times the same gathered neighbour
  embedding, in the same grouping — and scatter-adds the same messages at the same indices. It then contracts the
  concatenation [features | aggregate] (256 columns) against the transposed combine weights; the kernel contracts each
  half against its half of the weights and adds. A sum over 256 terms is the sum of its two halves
  (`Cert.Neighbor.sum_halves`): column k < 128 of the concatenation is the feature column k and meets weight column k,
  column 128 + k is the aggregate's column k and meets weight column 128 + k.
-/
import proofs.«116770_j19808389169521_1_alg».proof.Proof.Gen.ReferenceIdeal.Read
import proofs.«116770_j19808389169521_1_alg».proof.Proof.KernelValue
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem

namespace Cert.ReferenceIdeal.Bridge

open Cert.ReferenceIdeal Cert.ReferenceIdeal.Read Idealize.ShloMosaic.ValueIdx

/-! ## Layout operations of the kernel's host side, read at an index -/

/-- A vector reshaped to one column, read at a row. -/
theorem column_read {α : Type} (x : (⟨1, ![1600000]⟩ : Shape).Idx → α) (h) (e : Fin 1600000) :
    shapeCast (⟨2, ![1600000, 1]⟩ : Shape) x h (ix2 e 0) = x (ix1 e) :=
  shapeCast_apply x h (ix2 e 0) (ix1 e) (by
    rw [Shape.rowMajor_val_one, Shape.rowMajor_val_two]
    show e.val = e.val * 1 + 0
    omega)

/-- A vector reshaped to one row, read at a column. -/
theorem row_read {α : Type} (x : (⟨1, ![128]⟩ : Shape).Idx → α) (h) (q : Fin 128) :
    shapeCast (⟨2, ![1, 128]⟩ : Shape) x h (ix2 0 q) = x (ix1 q) :=
  shapeCast_apply x h (ix2 0 q) (ix1 q) (by
    rw [Shape.rowMajor_val_one, Shape.rowMajor_val_two]
    show q.val = 0 * 128 + q.val
    omega)

/-- The transposed filter weights at (k, q) are the weights at (q, k). -/
theorem filterT_read (x6 : (⟨S128x50, .f32⟩ : BufTy).Contents (Elt Ideal)) (k : Fin 50) (q : Fin 128) :
    transpose Cert.KernelIdeal.S50x128 [1, 0] x6 Cert.KernelIdeal.Facts₀.transposes_S128x50_S50x128_1_0 (ix2 k q) = x6 (ix2 q k) :=
  transpose_apply [1, 0] x6 _ (ix2 k q) (ix2 q k) (fun b => match b with
    | ⟨0, _⟩ => rfl
    | ⟨1, _⟩ => rfl)

/-- The first half of the combine weights, transposed, at (k, q) is the weights at (q, k). -/
theorem half1_read (x8 : (⟨S128x256, .f32⟩ : BufTy).Contents (Elt Ideal)) (k : Fin 128) (q : Fin 128) :
    transpose Cert.KernelIdeal.S128x128 [1, 0]
      (extractStridedSlice Cert.KernelIdeal.S128x128 ![0, 0] x8 Cert.KernelIdeal.Facts₀.slices_S128x256_S128x128_0_0)
      Cert.KernelIdeal.Facts₀.transposes_S128x128_S128x128_1_0 (ix2 k q) = x8 (ix2 q (Fin.castAdd 128 k)) := by
  rw [transpose_apply [1, 0] _ _ (ix2 k q) (ix2 q k) (fun b => match b with
    | ⟨0, _⟩ => rfl
    | ⟨1, _⟩ => rfl)]
  exact extractStridedSlice_apply _ x8 _ (ix2 q k) (ix2 q (Fin.castAdd 128 k)) (fun a => match a with
    | ⟨0, _⟩ => by show q.val = 0 + q.val; omega
    | ⟨1, _⟩ => by show k.val = 0 + k.val; omega)

/-- The second half of the combine weights, transposed, at (k, q) is the weights at (q, 128 + k). -/
theorem half2_read (x8 : (⟨S128x256, .f32⟩ : BufTy).Contents (Elt Ideal)) (k : Fin 128) (q : Fin 128) :
    transpose Cert.KernelIdeal.S128x128 [1, 0]
      (extractStridedSlice Cert.KernelIdeal.S128x128 ![0, 128] x8 Cert.KernelIdeal.Facts₀.slices_S128x256_S128x128_0_128)
      Cert.KernelIdeal.Facts₀.transposes_S128x128_S128x128_1_0 (ix2 k q) = x8 (ix2 q (Fin.natAdd 128 k)) := by
  rw [transpose_apply [1, 0] _ _ (ix2 k q) (ix2 q k) (fun b => match b with
    | ⟨0, _⟩ => rfl
    | ⟨1, _⟩ => rfl)]
  exact extractStridedSlice_apply _ x8 _ (ix2 q k) (ix2 q (Fin.natAdd 128 k)) (fun a => match a with
    | ⟨0, _⟩ => by show q.val = 0 + q.val; omega
    | ⟨1, _⟩ => by show 128 + k.val = 128 + k.val; rfl)

/-! ## The cutoff -/

/-- The reference's cutoff stage at an edge is `cutoff` of the edge's distance. -/
theorem cutoff_read (x3 : (⟨S1600000, .f32⟩ : BufTy).Contents (Elt Ideal)) (e : Fin 1600000) :
    val_main_v9 (F := Ideal) x3 (ix1 e) = Cert.Neighbor.cutoff (x3 (ix1 e)) := by
  rw [val_main_v9_apply, val_main_v8_apply, val_main_v7_apply, val_main_cst_2_apply, val_main_v6_apply, val_main_v5_apply,
    val_main_cst_1_apply, val_main_v4_apply, val_main_v3_apply, val_main_cst_0_apply, val_main_v2_apply, val_main_v1_apply,
    val_main_v0_apply, val_main_cst_apply, val_main_call0_v1_apply, val_main_call0_v0_apply, val_main_cst_3_apply]
  rfl

/-! ## The messages -/

/-- The reference's message stage is `message` of the same operands the kernel's first region finds. -/
theorem message_eq (x0 : (⟨S100000, .i32⟩ : BufTy).Contents (Elt Ideal)) (x2 : (⟨S2x1600000, .i32⟩ : BufTy).Contents (Elt Ideal)) (x3 : (⟨S1600000, .f32⟩ : BufTy).Contents (Elt Ideal)) (x4 : (⟨S1600000x50, .f32⟩ : BufTy).Contents (Elt Ideal)) (x5 : (⟨S95x128, .f32⟩ : BufTy).Contents (Elt Ideal)) (x6 : (⟨S128x50, .f32⟩ : BufTy).Contents (Elt Ideal)) (x7 : (⟨S128, .f32⟩ : BufTy).Contents (Elt Ideal)) :
    val_main_v34 (F := Ideal) x0 x2 x3 x4 x5 x6 x7
      = (Cert.Neighbor.message x4 (transpose Cert.KernelIdeal.S50x128 [1, 0] x6 Cert.KernelIdeal.Facts₀.transposes_S128x50_S50x128_1_0)
        (shapeCast _ x7 Cert.KernelIdeal.Facts₀.shapeCasts_S128_S1x128) (shapeCast _ x3 Cert.KernelIdeal.Facts₀.shapeCasts_S1600000_S1600000x1)
        (Cert.KernelIdeal.Stretch.neighbour x5 x0 x2)) := by
  funext i
  obtain ⟨e, q, rfl⟩ : ∃ (e : Fin 1600000) (q : Fin 128), i = ix2 e q := ⟨i 0, i 1, eq_ix2 i⟩
  rw [val_main_v34_apply, val_main_v17_apply, val_main_v14_apply, val_main_v11_apply, val_main_v13_apply, val_main_v12_apply,
    val_main_v16_apply, val_main_v15_apply]
  have hd : idx_main_v15 (idx_main_v16 (ix2 e q)) = ix1 e := funext fun a => by
    match a with
    | ⟨0, _⟩ => rfl
  have hb : idx_main_v12 (idx_main_v13 (ix2 e q)) = ix1 q := funext fun a => by
    match a with
    | ⟨0, _⟩ => rfl
  have hl : ∀ k : Fin 50, lidx_main_v11 (ix2 e q) k = ix2 e k := fun k => funext fun a => by
    match a with
    | ⟨0, _⟩ => rfl
    | ⟨1, _⟩ => rfl
  have hr : ∀ k : Fin 50, ridx_main_v11 (ix2 e q) k = ix2 k q := fun k => funext fun a => by
    match a with
    | ⟨0, _⟩ => rfl
    | ⟨1, _⟩ => rfl
  rw [hd, hb, cutoff_read]
  simp only [hl, hr]
  show ((∑ k : Fin 50, x4 (ix2 e k) * val_main_v10 (F := Ideal) x6 (ix2 k q)) + x7 (ix1 q)) * Cert.Neighbor.cutoff (x3 (ix1 e))
        * val_main_v33 (F := Ideal) x0 x2 x5 (ix2 e q)
      = ((∑ k : Fin 50, x4 (ix2 e k) * transpose Cert.KernelIdeal.S50x128 [1, 0] x6 Cert.KernelIdeal.Facts₀.transposes_S128x50_S50x128_1_0 (ix2 k q))
          + shapeCast (⟨2, ![1, 128]⟩ : Shape) x7 Cert.KernelIdeal.Facts₀.shapeCasts_S128_S1x128 (ix2 0 q))
        * Cert.Neighbor.cutoff (shapeCast (⟨2, ![1600000, 1]⟩ : Shape) x3 Cert.KernelIdeal.Facts₀.shapeCasts_S1600000_S1600000x1 (ix2 e 0))
        * Cert.KernelIdeal.Stretch.neighbour x5 x0 x2 (ix2 e q)
  rw [row_read, column_read]
  rfl

/-- So the reference's aggregate is the kernel's: the same scatter-add, from the same zeros, at the same indices, of the
    same messages. -/
theorem aggregate_eq (x0 : (⟨S100000, .i32⟩ : BufTy).Contents (Elt Ideal)) (x2 : (⟨S2x1600000, .i32⟩ : BufTy).Contents (Elt Ideal)) (x3 : (⟨S1600000, .f32⟩ : BufTy).Contents (Elt Ideal)) (x4 : (⟨S1600000x50, .f32⟩ : BufTy).Contents (Elt Ideal)) (x5 : (⟨S95x128, .f32⟩ : BufTy).Contents (Elt Ideal)) (x6 : (⟨S128x50, .f32⟩ : BufTy).Contents (Elt Ideal)) (x7 : (⟨S128, .f32⟩ : BufTy).Contents (Elt Ideal)) :
    val_main_v44 (F := Ideal) x0 x2 x3 x4 x5 x6 x7 = Cert.KernelIdeal.Stretch.aggregate x2 (Cert.Neighbor.message x4 (transpose Cert.KernelIdeal.S50x128 [1, 0] x6 Cert.KernelIdeal.Facts₀.transposes_S128x50_S50x128_1_0)
        (shapeCast _ x7 Cert.KernelIdeal.Facts₀.shapeCasts_S128_S1x128) (shapeCast _ x3 Cert.KernelIdeal.Facts₀.shapeCasts_S1600000_S1600000x1)
        (Cert.KernelIdeal.Stretch.neighbour x5 x0 x2)) := by
  unfold val_main_v44
  rw [message_eq]
  rfl

/-! ## The result -/

theorem result_eq (x0 : (⟨S100000, .i32⟩ : BufTy).Contents (Elt Ideal)) (x1 : (⟨S100000x128, .f32⟩ : BufTy).Contents (Elt Ideal)) (x2 : (⟨S2x1600000, .i32⟩ : BufTy).Contents (Elt Ideal)) (x3 : (⟨S1600000, .f32⟩ : BufTy).Contents (Elt Ideal)) (x4 : (⟨S1600000x50, .f32⟩ : BufTy).Contents (Elt Ideal)) (x5 : (⟨S95x128, .f32⟩ : BufTy).Contents (Elt Ideal)) (x6 : (⟨S128x50, .f32⟩ : BufTy).Contents (Elt Ideal)) (x7 : (⟨S128, .f32⟩ : BufTy).Contents (Elt Ideal)) (x8 : (⟨S128x256, .f32⟩ : BufTy).Contents (Elt Ideal)) (x9 : (⟨S128, .f32⟩ : BufTy).Contents (Elt Ideal)) :
    val_main_v50 (F := Ideal) x0 x1 x2 x3 x4 x5 x6 x7 x8 x9 = Cert.KernelIdeal.Closed.result x0 x1 x2 x3 x4 x5 x6 x7 x8 x9 := by
  funext i
  obtain ⟨n, q, rfl⟩ : ∃ (n : Fin 100000) (q : Fin 128), i = ix2 n q := ⟨i 0, i 1, eq_ix2 i⟩
  rw [val_main_v50_apply, val_main_v47_apply, val_main_v49_apply, val_main_v48_apply, Cert.Neighbor.sum_halves]
  have hL : ∀ k : Fin 128, val_main_v45 (F := Ideal) x0 x1 x2 x3 x4 x5 x6 x7 (lidx_main_v47 (ix2 n q) (Fin.castAdd 128 k)) = x1 (ix2 n k) := fun k => by
    unfold val_main_v45
    exact concatenate_pair_apply_left 1 x1 _ Cert.ReferenceIdeal.Facts₀.concatenates_S100000x128_S100000x128_S100000x256_d1 _ rfl (ix2 n k) (fun b => match b with
      | ⟨0, _⟩ => rfl
      | ⟨1, _⟩ => rfl)
  have hR : ∀ k : Fin 128, val_main_v45 (F := Ideal) x0 x1 x2 x3 x4 x5 x6 x7 (lidx_main_v47 (ix2 n q) (Fin.natAdd 128 k))
      = val_main_v44 (F := Ideal) x0 x2 x3 x4 x5 x6 x7 (ix2 n k) := fun k => by
    unfold val_main_v45
    exact concatenate_pair_apply_right 1 x1 _ Cert.ReferenceIdeal.Facts₀.concatenates_S100000x128_S100000x128_S100000x256_d1 _ rfl rfl (ix2 n k) (fun b hb => match b, hb with
      | ⟨0, _⟩, _ => rfl
      | ⟨1, _⟩, hb => (hb rfl).elim) (by show k.val + 128 = 128 + k.val; omega)
  have hW1 : ∀ k : Fin 128, val_main_v46 (F := Ideal) x8 (ridx_main_v47 (ix2 n q) (Fin.castAdd 128 k)) = x8 (ix2 q (Fin.castAdd 128 k)) := fun k => by
    rw [val_main_v46_apply]
    exact congrArg x8 (funext fun a => by
      match a with
      | ⟨0, _⟩ => rfl
      | ⟨1, _⟩ => rfl)
  have hW2 : ∀ k : Fin 128, val_main_v46 (F := Ideal) x8 (ridx_main_v47 (ix2 n q) (Fin.natAdd 128 k)) = x8 (ix2 q (Fin.natAdd 128 k)) := fun k => by
    rw [val_main_v46_apply]
    exact congrArg x8 (funext fun a => by
      match a with
      | ⟨0, _⟩ => rfl
      | ⟨1, _⟩ => rfl)
  have hB : idx_main_v48 (idx_main_v49 (ix2 n q)) = ix1 q := funext fun a => by
    match a with
    | ⟨0, _⟩ => rfl
  simp only [hL, hR, hW1, hW2, hB, aggregate_eq]
  show ((∑ k : Fin 128, x1 (ix2 n k) * x8 (ix2 q (Fin.castAdd 128 k)))
        + ∑ k : Fin 128, Cert.KernelIdeal.Stretch.aggregate x2 (Cert.Neighbor.message x4 (transpose Cert.KernelIdeal.S50x128 [1, 0] x6 Cert.KernelIdeal.Facts₀.transposes_S128x50_S50x128_1_0)
        (shapeCast _ x7 Cert.KernelIdeal.Facts₀.shapeCasts_S128_S1x128) (shapeCast _ x3 Cert.KernelIdeal.Facts₀.shapeCasts_S1600000_S1600000x1)
        (Cert.KernelIdeal.Stretch.neighbour x5 x0 x2)) (ix2 n k) * x8 (ix2 q (Fin.natAdd 128 k))) + x9 (ix1 q)
      = ((∑ k : Fin 128, x1 (ix2 n k) * transpose Cert.KernelIdeal.S128x128 [1, 0]
            (extractStridedSlice Cert.KernelIdeal.S128x128 ![0, 0] x8 Cert.KernelIdeal.Facts₀.slices_S128x256_S128x128_0_0)
            Cert.KernelIdeal.Facts₀.transposes_S128x128_S128x128_1_0 (ix2 k q))
        + ∑ k : Fin 128, Cert.KernelIdeal.Stretch.aggregate x2 (Cert.Neighbor.message x4 (transpose Cert.KernelIdeal.S50x128 [1, 0] x6 Cert.KernelIdeal.Facts₀.transposes_S128x50_S50x128_1_0)
        (shapeCast _ x7 Cert.KernelIdeal.Facts₀.shapeCasts_S128_S1x128) (shapeCast _ x3 Cert.KernelIdeal.Facts₀.shapeCasts_S1600000_S1600000x1)
        (Cert.KernelIdeal.Stretch.neighbour x5 x0 x2)) (ix2 n k) * transpose Cert.KernelIdeal.S128x128 [1, 0]
            (extractStridedSlice Cert.KernelIdeal.S128x128 ![0, 128] x8 Cert.KernelIdeal.Facts₀.slices_S128x256_S128x128_0_128)
            Cert.KernelIdeal.Facts₀.transposes_S128x128_S128x128_1_0 (ix2 k q))
        + shapeCast (⟨2, ![1, 128]⟩ : Shape) x9 Cert.KernelIdeal.Facts₀.shapeCasts_S128_S1x128 (ix2 0 q)
  have s1 : (∑ k : Fin 128, x1 (ix2 n k) * x8 (ix2 q (Fin.castAdd 128 k)))
      = ∑ k : Fin 128, x1 (ix2 n k) * transpose Cert.KernelIdeal.S128x128 [1, 0]
            (extractStridedSlice Cert.KernelIdeal.S128x128 ![0, 0] x8 Cert.KernelIdeal.Facts₀.slices_S128x256_S128x128_0_0)
            Cert.KernelIdeal.Facts₀.transposes_S128x128_S128x128_1_0 (ix2 k q) :=
    Finset.sum_congr rfl fun k _ => by rw [half1_read]
  have s2 : (∑ k : Fin 128, Cert.KernelIdeal.Stretch.aggregate x2 (Cert.Neighbor.message x4 (transpose Cert.KernelIdeal.S50x128 [1, 0] x6 Cert.KernelIdeal.Facts₀.transposes_S128x50_S50x128_1_0)
        (shapeCast _ x7 Cert.KernelIdeal.Facts₀.shapeCasts_S128_S1x128) (shapeCast _ x3 Cert.KernelIdeal.Facts₀.shapeCasts_S1600000_S1600000x1)
        (Cert.KernelIdeal.Stretch.neighbour x5 x0 x2)) (ix2 n k) * x8 (ix2 q (Fin.natAdd 128 k)))
      = ∑ k : Fin 128, Cert.KernelIdeal.Stretch.aggregate x2 (Cert.Neighbor.message x4 (transpose Cert.KernelIdeal.S50x128 [1, 0] x6 Cert.KernelIdeal.Facts₀.transposes_S128x50_S50x128_1_0)
        (shapeCast _ x7 Cert.KernelIdeal.Facts₀.shapeCasts_S128_S1x128) (shapeCast _ x3 Cert.KernelIdeal.Facts₀.shapeCasts_S1600000_S1600000x1)
        (Cert.KernelIdeal.Stretch.neighbour x5 x0 x2)) (ix2 n k) * transpose Cert.KernelIdeal.S128x128 [1, 0]
            (extractStridedSlice Cert.KernelIdeal.S128x128 ![0, 128] x8 Cert.KernelIdeal.Facts₀.slices_S128x256_S128x128_0_128)
            Cert.KernelIdeal.Facts₀.transposes_S128x128_S128x128_1_0 (ix2 k q) :=
    Finset.sum_congr rfl fun k _ => by rw [half2_read]
  rw [row_read, s1, s2]

end Cert.ReferenceIdeal.Bridge

end
-- ==== Proof.lean ====
/-
  A message-passing layer over a graph of 100000 nodes and 1600000 edges, as two tiled kernels with the host's gathers
  and scatter-add between them, against its plain reference; both read on the extended reals.

  For every edge e and channel h the message is
      ((∑ₖ attr[e,k] · W[h,k] + b[h]) · cutoff (dist[e])) · emb[type[dst e], h],
  with cutoff r = ½ (cos (r · π/5) + 1) for r < 5 and 0 otherwise; the messages are summed into their source nodes; and
  every node's output is its features and its summed messages against the combine weights, plus a bias.

  The kernel computes the messages in blocks of 12800 edges (first region), lets the host sum them into the nodes, and
  computes the outputs in blocks of 10000 nodes (second region) as TWO products, features against the first 128 weight
  columns and summed messages against the last 128, added. The reference contracts the concatenation [features | summed
  messages] against all 256 weight columns at once. The two agree because a sum over 256 terms is the sum of its halves;
  everything else is the same operations on the same operands in the same grouping (the changes of float format inside
  the kernel are the identity on the extended reals, a block product into a zero accumulator is the plain sum). No step
  uses that the inputs are finite.

  The modules: `Spec` states the two array functions and the sum law; `Region0` / `Region1` show that each region's
  output array ends at its function of what the region finds; `HostStretch` reads the host operations around the regions
  back; `KernelRun` is the launch with the result array named, `KernelValue` the kernel's result as one function of the
  arguments and its run; `RefBridge` shows the reference's result is that function. Below, the five claims.
-/
import proofs.«116770_j19808389169521_1_alg».proof.Defs
import proofs.«116770_j19808389169521_1_alg».proof.Proof.Gen.Kernel
import proofs.«116770_j19808389169521_1_alg».proof.Proof.Gen.Kernel.Skeleton
import proofs.«116770_j19808389169521_1_alg».proof.Proof.Gen.Kernel.Launch
import proofs.«116770_j19808389169521_1_alg».proof.Proof.Gen.Kernel.Points
import proofs.«116770_j19808389169521_1_alg».proof.Proof.Gen.Kernel.Frame
import proofs.«116770_j19808389169521_1_alg».proof.Proof.Gen.KernelIdeal
import proofs.«116770_j19808389169521_1_alg».proof.Proof.Gen.KernelIdeal.Skeleton
import proofs.«116770_j19808389169521_1_alg».proof.Proof.Gen.KernelIdeal.Launch
import proofs.«116770_j19808389169521_1_alg».proof.Proof.Gen.KernelIdeal.Points
import proofs.«116770_j19808389169521_1_alg».proof.Proof.Gen.KernelIdeal.Frame
import proofs.«116770_j19808389169521_1_alg».proof.Proof.Gen.ReferenceIdeal
import proofs.«116770_j19808389169521_1_alg».proof.Proof.Gen.Pre_finite_inputs
import proofs.«116770_j19808389169521_1_alg».proof.Proof.Gen.ReferenceIdeal.Run
import proofs.«116770_j19808389169521_1_alg».proof.Proof.Gen.ReferenceIdeal.Read
import proofs.«116770_j19808389169521_1_alg».proof.Proof.Region0
import proofs.«116770_j19808389169521_1_alg».proof.Proof.Region1
import proofs.«116770_j19808389169521_1_alg».proof.Proof.KernelValue
import proofs.«116770_j19808389169521_1_alg».proof.Proof.RefBridge
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments unchanged: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments, both programs end with the same result array: the kernel's closed form
    of the arguments, which the reference's composed term equals index by index. -/
theorem algebraic : Cert.algebraic_KernelIdeal_ReferenceIdeal := by
  intro m ρ m' ρ' _ hagree
  refine ⟨fun c => Cert.KernelIdeal.Closed.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.Closed.run m ρ Cert.KernelIdeal.Region0.array Cert.KernelIdeal.Region1.array, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [Cert.ReferenceIdeal.Read.val_main_v50_eq, e0, e1, e2, e3, e4, e5, e6, e7, e8, e9]
  exact Cert.ReferenceIdeal.Bridge.result_eq _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
